-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x2048 : Shape := ⟨2, ![4096, 2048]⟩
abbrev S4096x4096 : Shape := ⟨2, ![4096, 4096]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x2048 : Shape := ⟨2, ![1, 2048]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x512, .f32⟩
  | .local _ .vmem, ⟨5, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  bitsLt_bf16_f32 : FTy.bits .bf16 < FTy.bits .f32
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S1x2048_S512x2048_S1x512_1_1_0_0_n_n_wf : DotDims.WF S1x2048 S512x2048 S1x512 [1] [1] [0] [0] [] []
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)

variable [Facts₀]

def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x2048_S4096x2048_S4096x4096_1_1_0_0_n_n_wf : DotDims.WF S4096x2048 S4096x2048 S4096x4096 [1] [1] [0] [0] [] []

variable [Facts₀]

def dot_S4096x2048_S4096x2048_S4096x4096_1_1_0_0_n_n : DotDims S4096x2048 S4096x2048 S4096x4096 where
  lhsContracting := [1]
  rhsContracting := [1]
  lhsNonContracting := [0]
  rhsNonContracting := [0]
  lhsBatch := []
  rhsBatch := []
  wf := dot_S4096x2048_S4096x2048_S4096x4096_1_1_0_0_n_n_wf

class Facts : Prop extends Facts₀ where

variable [Facts]
-- ==== Proof.Block.lean ====
/-
  One grid point of the radial-basis kernel, at the extended reals. The body loads a 512×2048 block `a` of the
  samples and a 512×2048 block `b` of the centres and stores the 512×512 block whose entry (p, q) is
  `exp (γ' · ((‖a_p‖² + ‖b_q‖²) − 2 · ⟨a_p, b_q⟩))` with `γ' = −0.05` as a float: the squared norm of a sample row is a
  lane sum, the squared norm of a centre row is a product of a row of ones with the squared block (so each term
  carries a factor one), and the inner products are one matrix product of the two blocks; the narrowing to
  bfloat16 in front of that product is the identity here.
-/
import proofs.«171339_j30511447670912_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.KernelIdeal.Block

open Cert.KernelIdeal Cert.KernelIdeal.Gen

/-- The float `1.0` is the number one. -/
theorem one_word : Ideal.ofBits .f32 0x3F800000#32 = 1 := by
  simp [Ideal.ofBits, Ideal.ieee, -EReal.coe_mul]; norm_num

/-- The lane sum of a 512×2048 block, read at row `p`: the sum of that row. -/
theorem laneSum_apply (v : FVec Ideal S512x2048 .f32) (p : Fin 512) :
    multiReduction .add [1] S512 v 0x00000000#32 reduces_S512x2048_S512 (.inl rfl) rfl (ix1 p)
      = ∑ k : Fin 2048, v (ix2 p k) := by
  refine (Ideal.multiReduction_add_single v 0x00000000#32 reduces_S512x2048_S512 (.inl rfl) rfl (ix1 p)).trans ?_
  refine Finset.sum_congr rfl fun k _ => congrArg v (funext fun a => Fin.ext ?_)
  rw [Shape.Reduces.lift_val]
  match a with
  | ⟨0, _⟩ => rfl
  | ⟨1, _⟩ => rfl

/-- The column of row sums: a length-512 vector laid out as 512×1. -/
theorem column_apply (v : FVec Ideal S512 .f32) (p : Fin 512) (u : Fin 1) :
    shapeCast S512x1 v shapeCasts_S512_S512x1 (ix2 p u) = v (ix1 p) :=
  shapeCast_apply v shapeCasts_S512_S512x1 (ix2 p u) (ix1 p) (by
    have hu : u.val = 0 := by omega
    rw [Shape.rowMajor_val_two, Shape.rowMajor_val_one]
    show p.val = p.val * 1 + u.val
    rw [hu, Nat.mul_one, Nat.add_zero])

/-- A 512×1 column spread over 512 columns reads, at (p, q), the column at p. -/
theorem spreadColumn_apply (v : FVec Ideal S512x1 .f32) (p q : Fin 512) :
    broadcastTo S512x512 v broadcasts_S512x1_S512x512 (ix2 p q) = v (ix2 p (0 : Fin 1)) := by
  refine broadcastTo_apply v broadcasts_S512x1_S512x512 (ix2 p q) (ix2 p (0 : Fin 1)) fun ax => ?_
  match ax with
  | ⟨0, _⟩ =>
    show p.val = if (512 : Nat) = 1 then 0 else p.val
    rw [if_neg (by decide)]
  | ⟨1, _⟩ =>
    show 0 = if (1 : Nat) = 1 then 0 else q.val
    rw [if_pos rfl]

/-- A 1×512 row spread over 512 rows reads, at (p, q), the row at q. -/
theorem spreadRow_apply (v : FVec Ideal S1x512 .f32) (p q : Fin 512) :
    broadcastTo S512x512 v broadcasts_S1x512_S512x512 (ix2 p q) = v (ix2 (0 : Fin 1) q) :=
  broadcastTo_1b_ab_apply v broadcasts_S1x512_S512x512 p q

/-! ### The row of ones times the squared centre block -/

theorem onesRhs_0 (i : S1x512.Idx) (r : dot_S1x2048_S512x2048_S1x512_1_1_0_0_n_n.contr.Idx) :
    (dot_S1x2048_S512x2048_S1x512_1_1_0_0_n_n.rhsIdx i r 0).val = (i 1).val := by
  unfold DotDims.rhsIdx
  rw [dif_neg (show ¬(0 : Fin S512x2048.rank) ∈ dot_S1x2048_S512x2048_S1x512_1_1_0_0_n_n.rhsBatch by decide), dif_pos (show (0 : Fin S512x2048.rank) ∈ dot_S1x2048_S512x2048_S1x512_1_1_0_0_n_n.rhsNonContracting by decide)]
  rfl
theorem onesRhs_1 (i : S1x512.Idx) (r : dot_S1x2048_S512x2048_S1x512_1_1_0_0_n_n.contr.Idx) :
    (dot_S1x2048_S512x2048_S1x512_1_1_0_0_n_n.rhsIdx i r 1).val = (r ⟨0, by decide⟩).val :=
  dot_S1x2048_S512x2048_S1x512_1_1_0_0_n_n.rhsIdx_val_of_single rfl i r

/-- The product of a row of a constant `e` with a 512×2048 block, contracted over the 2048 axis, read at column
    `q`: the sum over `k` of `e` times the block at (q, k). -/
theorem onesProduct_apply (e : Ideal .f32) (w : FVec Ideal S512x2048 .f32) (u : Fin 1) (q : Fin 512) :
    matmul dot_S1x2048_S512x2048_S1x512_1_1_0_0_n_n (some .fp32) (broadcast S1x2048 e : FVec Ideal S1x2048 .f32) w (constant S1x512 .f32 0x00000000#32) (ix2 u q)
      = ∑ k : Fin 2048, e * w (ix2 q k) := by
  refine (Ideal.matmul_constant_zero_apply dot_S1x2048_S512x2048_S1x512_1_1_0_0_n_n (some .fp32) (broadcast S1x2048 e : FVec Ideal S1x2048 .f32) w (ix2 u q)).trans ?_
  rw [← Equiv.sum_comp (contrEquiv1 dot_S1x2048_S512x2048_S1x512_1_1_0_0_n_n 2048 rfl rfl).symm]
  refine Finset.sum_congr rfl fun k _ => ?_
  have hk := contrEquiv1_symm_val dot_S1x2048_S512x2048_S1x512_1_1_0_0_n_n 2048 rfl rfl k
  have er : dot_S1x2048_S512x2048_S1x512_1_1_0_0_n_n.rhsIdx (ix2 u q) ((contrEquiv1 dot_S1x2048_S512x2048_S1x512_1_1_0_0_n_n 2048 rfl rfl).symm k) = ix2 q k := funext fun a => Fin.ext (by
    match a with
    | ⟨0, _⟩ => exact onesRhs_0 _ _
    | ⟨1, _⟩ => exact (onesRhs_1 _ _).trans hk)
  rw [er]
  rfl

/-! ### The product of the sample block with the centre block -/

theorem crossLhs_0 (i : S512x512.Idx) (r : dot_S512x2048_S512x2048_S512x512_1_1_0_0_n_n.contr.Idx) :
    (dot_S512x2048_S512x2048_S512x512_1_1_0_0_n_n.lhsIdx i r 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem crossLhs_1 (i : S512x512.Idx) (r : dot_S512x2048_S512x2048_S512x512_1_1_0_0_n_n.contr.Idx) :
    (dot_S512x2048_S512x2048_S512x512_1_1_0_0_n_n.lhsIdx i r 1).val = (r ⟨0, by decide⟩).val :=
  dot_S512x2048_S512x2048_S512x512_1_1_0_0_n_n.lhsIdx_val_of_single rfl i r
theorem crossRhs_0 (i : S512x512.Idx) (r : dot_S512x2048_S512x2048_S512x512_1_1_0_0_n_n.contr.Idx) :
    (dot_S512x2048_S512x2048_S512x512_1_1_0_0_n_n.rhsIdx i r 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem crossRhs_1 (i : S512x512.Idx) (r : dot_S512x2048_S512x2048_S512x512_1_1_0_0_n_n.contr.Idx) :
    (dot_S512x2048_S512x2048_S512x512_1_1_0_0_n_n.rhsIdx i r 1).val = (r ⟨0, by decide⟩).val :=
  dot_S512x2048_S512x2048_S512x512_1_1_0_0_n_n.rhsIdx_val_of_single rfl i r

/-- The product of two 512×2048 blocks contracted over their 2048 axes, read at (p, q): the inner product of row
    `p` of the first with row `q` of the second. -/
theorem crossProduct_apply (a b : FVec Ideal S512x2048 .bf16) (p q : Fin 512) :
    matmul dot_S512x2048_S512x2048_S512x512_1_1_0_0_n_n none a b (constant S512x512 .f32 0x00000000#32) (ix2 p q)
      = ∑ k : Fin 2048, a (ix2 p k) * b (ix2 q k) := by
  refine (Ideal.matmul_constant_zero_apply dot_S512x2048_S512x2048_S512x512_1_1_0_0_n_n none a b (ix2 p q)).trans ?_
  rw [← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p q) ((contrEquiv1 dot_S512x2048_S512x2048_S512x512_1_1_0_0_n_n 2048 rfl rfl).symm k) = ix2 p k := funext fun a => Fin.ext (by
    match a with
    | ⟨0, _⟩ => exact crossLhs_0 _ _
    | ⟨1, _⟩ => exact (crossLhs_1 _ _).trans hk)
  have er : dot_S512x2048_S512x2048_S512x512_1_1_0_0_n_n.rhsIdx (ix2 p q) ((contrEquiv1 dot_S512x2048_S512x2048_S512x512_1_1_0_0_n_n 2048 rfl rfl).symm k) = ix2 q k := funext fun a => Fin.ext (by
    match a with
    | ⟨0, _⟩ => exact crossRhs_0 _ _
    | ⟨1, _⟩ => exact (crossRhs_1 _ _).trans hk)
  rw [el, er]

/-! ### The stored block -/

/-- Entry (p, q) of the block one grid point stores, from its sample block `a` and its centre block `b`. -/
def entry (a b : FVec Ideal S512x2048 .f32) (p q : Fin 512) : EReal :=
  Ideal.exp (Ideal.ofBits .f32 0xBD4CCCCD#32 *
    ((∑ k : Fin 2048, a (ix2 p k) * a (ix2 p k) + ∑ k : Fin 2048, b (ix2 q k) * b (ix2 q k))
      - Ideal.ofBits .f32 0x40000000#32 * ∑ k : Fin 2048, a (ix2 p k) * b (ix2 q k)))

/-- The body's stored value at (p, q) is `entry`: the three sums read off the lane sum and the two products, the
    factor one of the ones row dropped. -/
theorem payload_apply (a b : FVec Ideal S512x2048 .f32) (p q : Fin 512) :
    k0_pay1 (F := Ideal) a b (ix2 p q) = entry a b p q := by
  have e1 : broadcastTo S512x512 (shapeCast S512x1 (multiReduction .add [1] S512 (mulf a a) 0x00000000#32 reduces_S512x2048_S512 (.inl rfl) rfl) shapeCasts_S512_S512x1) broadcasts_S512x1_S512x512 (ix2 p q)
      = ∑ k : Fin 2048, a (ix2 p k) * a (ix2 p k) :=
    (spreadColumn_apply _ p q).trans ((column_apply _ p 0).trans (laneSum_apply (mulf a a) p))
  have e2 : broadcastTo S512x512 (matmul dot_S1x2048_S512x2048_S1x512_1_1_0_0_n_n (some .fp32) (broadcast S1x2048 (Scalar.ofBits (F := Ideal) .f32 0x3F800000#32) : FVec Ideal S1x2048 .f32) (mulf b b) (constant S1x512 .f32 0x00000000#32)) broadcasts_S1x512_S512x512 (ix2 p q)
      = ∑ k : Fin 2048, b (ix2 q k) * b (ix2 q k) := by
    refine (spreadRow_apply _ p q).trans ((onesProduct_apply _ (mulf b b) 0 q).trans ?_)
    refine Finset.sum_congr rfl fun k _ => ?_
    show Ideal.ofBits .f32 0x3F800000#32 * (b (ix2 q k) * b (ix2 q k)) = _
    rw [one_word, one_mul]
  have e3 : matmul dot_S512x2048_S512x2048_S512x512_1_1_0_0_n_n none (truncf .bf16 a bitsLt_bf16_f32) (truncf .bf16 b bitsLt_bf16_f32) (constant S512x512 .f32 0x00000000#32) (ix2 p q)
      = ∑ k : Fin 2048, a (ix2 p k) * b (ix2 q k) :=
    crossProduct_apply _ _ p q
  unfold k0_pay1 entry
  show Ideal.exp (Ideal.ofBits .f32 0xBD4CCCCD#32 * ((_ + _) - Ideal.ofBits .f32 0x40000000#32 * _)) = _
  rw [e1, e2, e3]

end Cert.KernelIdeal.Block

end
-- ==== Proof.Spec.lean ====
/-
  The function both programs compute. For samples `X` and centres `C`, each 4096×2048, entry (r, s) of the
  4096×4096 result is `exp (γ' · ((‖X_r‖² + ‖C_s‖²) − 2 · ⟨X_r, C_s⟩))`, the Gaussian radial-basis value of the squared
  distance written out by the polarisation identity; `γ' = −0.05` and `2` stay the float words both programs spell.
  All sums are over the 2048 features, on the extended reals.
-/
import Idealize.ShloMosaic.PureOps.Ideal
import Idealize.ShloMosaic.Lib.ValueIdx

noncomputable section

open Idealize.ShloMosaic Idealize.ShloMosaic.ValueIdx
open scoped BigOperators

namespace Cert.Rbf

/-- The shape of the samples and of the centres. -/
abbrev Pts : Shape := ⟨2, ![4096, 2048]⟩
/-- The shape of the result. -/
abbrev Res : Shape := ⟨2, ![4096, 4096]⟩

/-- The radial-basis value of sample row `r` against centre row `s`. -/
def rbfAt (X C : FVec Ideal Pts .f32) (r s : Fin 4096) : EReal :=
  Ideal.exp (Ideal.ofBits .f32 0xBD4CCCCD#32 *
    ((∑ k : Fin 2048, X (ix2 r k) * X (ix2 r k) + ∑ k : Fin 2048, C (ix2 s k) * C (ix2 s k))
      - Ideal.ofBits .f32 0x40000000#32 * ∑ k : Fin 2048, X (ix2 r k) * C (ix2 s k)))

/-- The whole result: `rbfAt` at the two coordinates of the index. -/
def rbf (X C : FVec Ideal Pts .f32) : FVec Ideal Res .f32 :=
  fun i => rbfAt X C ⟨(i 0).val, idx2_lt0 i⟩ ⟨(i 1).val, idx2_lt1 i⟩

end Cert.Rbf

end
-- ==== Proof.KernelWhole.lean ====
/-
  From blocks to the whole result. Grid point (bi, bj) of the 8×8 grid loads rows 512·bi … 512·bi + 511 of the samples
  and rows 512·bj … 512·bj + 511 of the centres, and writes back block (bi, bj) of the result; so what it writes is
  that block of the radial-basis function of the whole arrays, and the 64 blocks tile the 4096×4096 result.
-/
import proofs.«171339_j30511447670912_1_alg».proof.Proof.Gen.KernelIdeal.Value
import proofs.«171339_j30511447670912_1_alg».proof.Proof.Block
import proofs.«171339_j30511447670912_1_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Whole

open Cert.KernelIdeal Cert.KernelIdeal.Gen Cert.KernelIdeal.Value

variable (m : (ℓ : Loc nD τ sig) → Buf (Elt Ideal) ℓ) (ρ : Dev nD → PrngReg)

theorem zeroOffsets : (![0, 0] : Fin 2 → Nat) = fun _ => 0 := funext fun a => by fin_cases a <;> rfl

/-- The block indices over the grid: the sample window follows the result's row block, the centre window the
    result's column block, both at feature block 0, and the result's block indices are below 8. -/
theorem blockIndices : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every block of the 8×8 tiling is some grid point's. -/
theorem blockOnto : ∀ (bi bj : Fin 8), ∃ t : Fin cfg0.N, win0_2.index t = ![bi.val, bj.val] :=
  (by decide +kernel : ∀ (bi bj : Fin 8), ∃ t : Fin grid0.N, win0_2.index t = ![bi.val, bj.val])

/-- The sample block at point `t`: row `p` of the block is row `512 · (row block) + p` of the samples. -/
theorem sampleBlock_apply (c : Dev nD) (t : Fin cfg0.N) (p : Fin 512) (k : Fin 2048) (r : Fin 4096)
    (hr : r.val = win0_2.index t (0 : Fin 2) * 512 + p.val) :
    (iblk m c 0 t : Vec Ideal S512x2048 .f32) (ix2 p k) = (V m c main_arg0 : FVec Ideal S4096x2048 .f32) (ix2 r k) := by
  obtain ⟨e0, e1, e2, e3, e4, e5⟩ := blockIndices t
  unfold iblk
  rw [View.read_apply]
  show V m c main_arg0 _ = V m c main_arg0 _
  congr 1
  funext a
  apply Fin.ext
  match a with
  | ⟨0, _⟩ => show win0_0.index t (0 : Fin 2) * 512 + 1 * p.val = r.val; omega
  | ⟨1, _⟩ => show win0_0.index t (1 : Fin 2) * 2048 + 1 * k.val = k.val; omega

/-- The centre block at point `t`: row `q` of the block is row `512 · (column block) + q` of the centres. -/
theorem centreBlock_apply (c : Dev nD) (t : Fin cfg0.N) (q : Fin 512) (k : Fin 2048) (s : Fin 4096)
    (hs : s.val = win0_2.index t (1 : Fin 2) * 512 + q.val) :
    (iblk m c 1 t : Vec Ideal S512x2048 .f32) (ix2 q k) = (V m c main_arg1 : FVec Ideal S4096x2048 .f32) (ix2 s k) := by
  obtain ⟨e0, e1, e2, e3, e4, e5⟩ := blockIndices t
  unfold iblk
  rw [View.read_apply]
  show V m c main_arg1 _ = V m c main_arg1 _
  congr 1
  funext a
  apply Fin.ext
  match a with
  | ⟨0, _⟩ => show win0_1.index t (0 : Fin 2) * 512 + 1 * q.val = s.val; omega
  | ⟨1, _⟩ => show win0_1.index t (1 : Fin 2) * 2048 + 1 * k.val = k.val; omega

/-- A block entry computed from rows of the whole arrays is the radial-basis value of those rows. -/
theorem entry_eq_rbfAt (X C : FVec Ideal S4096x2048 .f32) (a b : FVec Ideal S512x2048 .f32) (p q : Fin 512) (r s : Fin 4096)
    (ha : ∀ k : Fin 2048, a (ix2 p k) = X (ix2 r k)) (hb : ∀ k : Fin 2048, b (ix2 q k) = C (ix2 s k)) :
    Block.entry a b p q = Cert.Rbf.rbfAt X C r s := by
  unfold Block.entry Cert.Rbf.rbfAt
  simp only [ha, hb]

/-- What point `t` writes back is block `t` of the radial-basis function of the argument arrays. -/
theorem flushed_eq (c : Dev nD) (t : Fin cfg0.N) :
    (dats m 0 c).flushed 2 t
      = ((cfg0.win 2).blk t).view.read (Elt Ideal) (Cert.Rbf.rbf (V m c main_arg0) (V m c main_arg1)) := by
  rw [flushed2]
  unfold out0_2
  rw [View.canon_unit_zero zeroOffsets]
  simp only [View.ld_unit_zero (S := S512x2048) zeroOffsets]
  obtain ⟨e0, e1, e2, e3, e4, e5⟩ := blockIndices t
  funext j
  show k0_pay1 (F := Ideal) (iblk m c 0 t) (iblk m c 1 t) j
    = Cert.Rbf.rbf (V m c main_arg0) (V m c main_arg1) (((cfg0.win 2).blk t).view.emb j)
  obtain ⟨p, q, rfl⟩ : ∃ (p q : Fin 512), j = ix2 p q := ⟨j 0, j 1, eq_ix2 j⟩
  refine (Block.payload_apply (iblk m c 0 t) (iblk m c 1 t) p q).trans ?_
  refine (entry_eq_rbfAt (V m c main_arg0) (V m c main_arg1) (iblk m c 0 t) (iblk m c 1 t) p q
    ⟨win0_2.index t (0 : Fin 2) * 512 + p.val, by have := p.isLt; omega⟩
    ⟨win0_2.index t (1 : Fin 2) * 512 + q.val, by have := q.isLt; omega⟩
    (fun k => sampleBlock_apply m c t p k _ rfl) (fun k => centreBlock_apply m c t q k _ rfl)).trans ?_
  unfold Cert.Rbf.rbf
  congr 1
  · apply Fin.ext
    show win0_2.index t (0 : Fin 2) * 512 + p.val = win0_2.index t (0 : Fin 2) * 512 + 1 * p.val
    omega
  · apply Fin.ext
    show win0_2.index t (1 : Fin 2) * 512 + q.val = win0_2.index t (1 : Fin 2) * 512 + 1 * q.val
    omega

/-- An index of the result is in point `t`'s block iff each coordinate is in that block's range. -/
theorem mem_block (t : Fin cfg0.N) (i : S4096x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- The 64 blocks cover the result: index (r, s) lies in block (r / 512, s / 512). -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := blockOnto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The result array after the run is the radial-basis function of the argument arrays. -/
theorem final (c : Dev nD) :
    (dats m 0 c).arrAt 2 cfg0.N = Cert.Rbf.rbf (m ((c : Thread nD τ).loc main_arg0)) (m ((c : Thread nD τ).loc main_arg1)) :=
  (dats m 0 c).arrAt_eq_of_cover 2 (Cert.Rbf.rbf (V m c main_arg0) (V m c main_arg1)) (fun t _ => flushed_eq m c t) covered

/-- The kernel's run, read: the result at the radial-basis function of the arguments, the arguments unchanged. -/
theorem run : θ_run defs (onTc (τ := τ) (main (F := Ideal))) ⟨m, fun _ => 0, ρ⟩ fun r => ∀ c : Dev nD,
      r.2.mem ((c : Thread nD τ).loc main_v0) = Cert.Rbf.rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefWhole.lean ====
/-
  The reference, read index by index, is the radial-basis function of `Proof/Spec.lean`: its two row-norm sums start
  from the float zero, its inner products are one `dot_general` over the features, and the broadcasts only copy a
  row's or a column's value to every entry of that row or column.
-/
import proofs.«171339_j30511447670912_1_alg».proof.Proof.Gen.ReferenceIdeal.Read
import proofs.«171339_j30511447670912_1_alg».proof.Proof.Spec

noncomputable section

open Idealize.ShloMosaic Idealize.ShloMosaic.ValueIdx
open scoped BigOperators

namespace Cert.ReferenceIdeal.Whole

open Cert.ReferenceIdeal Cert.ReferenceIdeal.Gen Cert.ReferenceIdeal.Read

/-- The entry of `X` the row-norm sum of the samples reads for result index `i` at feature `k`. -/
theorem sampleNorm_idx (i : S4096x4096.Idx) (k : Fin 2048) :
    idx_main_v1 (idx_main_v2 (idx_main_v7 i)) k = ix2 (⟨(i 0).val, idx2_lt0 i⟩ : Fin 4096) k :=
  funext fun a => Fin.ext (by match a with | ⟨0, _⟩ => rfl | ⟨1, _⟩ => rfl)

/-- The entry of `C` the row-norm sum of the centres reads for result index `i` at feature `k`. -/
theorem centreNorm_idx (i : S4096x4096.Idx) (k : Fin 2048) :
    idx_main_v4 (idx_main_v6 (idx_main_v8 i)) k = ix2 (⟨(i 1).val, idx2_lt1 i⟩ : Fin 4096) k :=
  funext fun a => Fin.ext (by match a with | ⟨0, _⟩ => rfl | ⟨1, _⟩ => rfl)

/-- The two entries the inner product reads. -/
theorem crossL_idx (i : S4096x4096.Idx) (k : Fin 2048) :
    lidx_main_v5 i k = ix2 (⟨(i 0).val, idx2_lt0 i⟩ : Fin 4096) k :=
  funext fun a => Fin.ext (by match a with | ⟨0, _⟩ => rfl | ⟨1, _⟩ => rfl)
theorem crossR_idx (i : S4096x4096.Idx) (k : Fin 2048) :
    ridx_main_v5 i k = ix2 (⟨(i 1).val, idx2_lt1 i⟩ : Fin 4096) k :=
  funext fun a => Fin.ext (by match a with | ⟨0, _⟩ => rfl | ⟨1, _⟩ => rfl)

/-- The reference's last stage is the radial-basis function of its two arguments. -/
theorem result_eq (X C : FVec Ideal S4096x2048 .f32) : val_main_v15 (F := Ideal) X C = Cert.Rbf.rbf X C := by
  funext i
  rw [val_main_v15_apply, val_main_v14_apply, val_main_v13_apply, val_main_cst_2_apply, val_main_v12_apply,
    val_main_v9_apply, val_main_v7_apply, val_main_v2_apply, val_main_v1_apply, val_main_cst_apply,
    val_main_v8_apply, val_main_v6_apply, val_main_v4_apply, val_main_cst_0_apply,
    val_main_v11_apply, val_main_v10_apply, val_main_cst_1_apply, val_main_v5_apply]
  simp only [val_main_v0_apply, val_main_v3_apply, sampleNorm_idx, centreNorm_idx, crossL_idx, crossR_idx,
    Ideal.hostUnary_exp_def, Ideal.mulf_def, Ideal.subf_def, Ideal.addf_def, Ideal.ofBits_def, Ideal.ofBits_zero_f32, zero_add]
  rfl

end Cert.ReferenceIdeal.Whole

end
-- ==== Proof.lean ====
/- The certificate's claim for the Gaussian radial-basis kernel. Both idealized programs compute, entry by entry,
   `exp (γ' · ((‖X_r‖² + ‖C_s‖²) − 2 · ⟨X_r, C_s⟩))` of the samples `X` and the centres `C` (Proof/Spec.lean): the kernel block by
   block over an 8×8 grid (Proof/Block.lean for one block, Proof/KernelWhole.lean for the tiling), the reference in whole-array
   operations (Proof/RefWhole.lean). No law beyond `1 · x = x` and `0 + x = x` joins the two sides, so the precondition is not
   used. The idealization rewrote nothing, so `preserves` is trivial; the frames are the generated runs. -/
import proofs.«171339_j30511447670912_1_alg».proof.Defs
import proofs.«171339_j30511447670912_1_alg».proof.Proof.Gen.Kernel
import proofs.«171339_j30511447670912_1_alg».proof.Proof.Gen.Kernel.Skeleton
import proofs.«171339_j30511447670912_1_alg».proof.Proof.Gen.Kernel.Launch
import proofs.«171339_j30511447670912_1_alg».proof.Proof.Gen.Kernel.Points
import proofs.«171339_j30511447670912_1_alg».proof.Proof.Gen.Kernel.Frame
import proofs.«171339_j30511447670912_1_alg».proof.Proof.Gen.KernelIdeal
import proofs.«171339_j30511447670912_1_alg».proof.Proof.Gen.KernelIdeal.Skeleton
import proofs.«171339_j30511447670912_1_alg».proof.Proof.Gen.KernelIdeal.Launch
import proofs.«171339_j30511447670912_1_alg».proof.Proof.Gen.KernelIdeal.Points
import proofs.«171339_j30511447670912_1_alg».proof.Proof.Gen.KernelIdeal.Frame
import proofs.«171339_j30511447670912_1_alg».proof.Proof.Gen.ReferenceIdeal
import proofs.«171339_j30511447670912_1_alg».proof.Proof.Gen.Pre_finite_inputs
import proofs.«171339_j30511447670912_1_alg».proof.Proof.Gen.KernelIdeal.Value
import proofs.«171339_j30511447670912_1_alg».proof.Proof.Gen.ReferenceIdeal.Run
import proofs.«171339_j30511447670912_1_alg».proof.Proof.Gen.ReferenceIdeal.Read
import proofs.«171339_j30511447670912_1_alg».proof.Proof.KernelWhole
import proofs.«171339_j30511447670912_1_alg».proof.Proof.RefWhole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the radial-basis function of the (agreeing) arguments. -/
theorem algebraic : Cert.algebraic_KernelIdeal_ReferenceIdeal := by
  intro m ρ m' ρ' _ hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Whole.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
